-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S1024x64 : Shape := ⟨2, ![1024, 64]⟩
abbrev S100000x64 : Shape := ⟨2, ![100000, 64]⟩
abbrev S64x1024 : Shape := ⟨2, ![64, 1024]⟩
abbrev S_ : Shape := ⟨0, ![]⟩
abbrev S1x1024 : Shape := ⟨2, ![1, 1024]⟩
abbrev S1x1 : Shape := ⟨2, ![1, 1]⟩
abbrev S1024 : Shape := ⟨1, ![1024]⟩
abbrev S2000x64 : Shape := ⟨2, ![2000, 64]⟩
abbrev S8x1024 : Shape := ⟨2, ![8, 1024]⟩
abbrev S2000 : Shape := ⟨1, ![2000]⟩
abbrev S2000x1 : Shape := ⟨2, ![2000, 1]⟩
abbrev S2000x1024 : Shape := ⟨2, ![2000, 1024]⟩
abbrev S250x8x1024 : Shape := ⟨3, ![250, 8, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 11
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S64x1024, .f32⟩
  | .hbm, ⟨3, _⟩ => ⟨S_, .f32⟩
  | .hbm, ⟨4, _⟩ => ⟨S64x1024, .f32⟩
  | .hbm, ⟨5, _⟩ => ⟨S64x1024, .f32⟩
  | .hbm, ⟨6, _⟩ => ⟨S64x1024, .bf16⟩
  | .hbm, ⟨7, _⟩ => ⟨S1x1024, .f32⟩
  | .hbm, ⟨8, _⟩ => ⟨S1x1, .f32⟩
  | .hbm, ⟨9, _⟩ => ⟨S_, .f32⟩
  | .hbm, ⟨10, _⟩ => ⟨S1024, .f32⟩
  | .local _ .vmem, ⟨0, _⟩ => ⟨S2000x64, .f32⟩
  | .local _ .vmem, ⟨1, _⟩ => ⟨S2000x64, .f32⟩
  | .local _ .vmem, ⟨2, _⟩ => ⟨S64x1024, .f32⟩
  | .local _ .vmem, ⟨3, _⟩ => ⟨S64x1024, .bf16⟩
  | .local _ .vmem, ⟨4, _⟩ => ⟨S1x1024, .f32⟩
  | .local _ .vmem, ⟨5, _⟩ => ⟨S1x1, .f32⟩
  | .local _ .vmem, ⟨6, _⟩ => ⟨S8x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v20 : BitVec 1 := Scalar.cmpi .eq arg0 c49_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S1024x64_S64x1024_1_0 : S1024x64.Transposes [1, 0] S64x1024
  bcast_S_S64x1024 : S_.BroadcastsInDim S64x1024 (![] : Fin 0 → Fin S64x1024.rank)
  bitsLt_bf16_f32 : FTy.bits .bf16 < FTy.bits .f32
  shapeCasts_S1x1_S_ : S1x1.ShapeCasts S_
  shapeCasts_S1x1024_S1024 : S1x1024.ShapeCasts S1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S2000x64_S2000x64_0_0 : ∀ a, (![0, 0] : Fin 2 → Nat) a + S2000x64.size a ≤ S2000x64.size a
  h_S2000x64 : 0 < S2000x64.numel
  reduces_S2000x64_S2000 : S2000x64.Reduces [1] S2000
  shapeCasts_S2000_S2000x1 : S2000.ShapeCasts S2000x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  broadcasts_S2000x1_S2000x1024 : S2000x1.Broadcasts S2000x1024
  shapeCasts_S2000x1024_S250x8x1024 : S2000x1024.ShapeCasts S250x8x1024
  reduces_S250x8x1024_S8x1024 : S250x8x1024.Reduces [0] S8x1024
  reduces_S64x1024_S1024 : S64x1024.Reduces [0] S1024
  shapeCasts_S1024_S1x1024 : S1024.ShapeCasts S1x1024
  reduces_S8x1024_S1024 : S8x1024.Reduces [0] S1024
  inb_S1x1024_S1x1024_0_0 : ∀ a, (![0, 0] : Fin 2 → Nat) a + S1x1024.size a ≤ S1x1024.size a
  h_S1x1024 : 0 < S1x1024.numel
  shapeCasts_S1x1024_S1x1x1024 : S1x1024.ShapeCasts S1x1x1024
  reduces_S1x1x1024_S1 : S1x1x1024.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  dot_S2000x64_S64x1024_S2000x1024_1_0_0_1_n_n_wf : DotDims.WF S2000x64 S64x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .bf16 = 32 ∨ (Rect.block (s := S64x1024) S64x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S2000x64_S64x1024_S2000x1024_1_0_0_1_n_n : DotDims S2000x64 S64x1024 S2000x1024 where
  lhsContracting := [1]
  rhsContracting := [0]
  lhsNonContracting := [0]
  rhsNonContracting := [1]
  lhsBatch := []
  rhsBatch := []
  wf := dot_S2000x64_S64x1024_S2000x1024_1_0_0_1_n_n_wf

abbrev win0_0 : Pipeline.Window sig grid0 :=
  Pipeline.Window.ofSpec (Memref.whole main_arg1) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4_0) S1x1024.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x64 : Shape := ⟨2, ![1024, 64]⟩
abbrev S100000x64 : Shape := ⟨2, ![100000, 64]⟩
abbrev S_ : Shape := ⟨0, ![]⟩
abbrev S1024 : Shape := ⟨1, ![1024]⟩
abbrev S100000 : Shape := ⟨1, ![100000]⟩
abbrev S64x100000 : Shape := ⟨2, ![64, 100000]⟩
abbrev S1024x100000 : Shape := ⟨2, ![1024, 100000]⟩
abbrev S1024x1 : Shape := ⟨2, ![1024, 1]⟩
abbrev S1x100000 : Shape := ⟨2, ![1, 100000]⟩

abbrev nBuf : Space → Nat
  | .hbm => 23
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S100000x64, .f32⟩
  | .hbm, ⟨6, _⟩ => ⟨S_, .f32⟩
  | .hbm, ⟨7, _⟩ => ⟨S100000, .f32⟩
  | .hbm, ⟨8, _⟩ => ⟨S64x100000, .f32⟩
  | .hbm, ⟨9, _⟩ => ⟨S1024x100000, .f32⟩
  | .hbm, ⟨10, _⟩ => ⟨S1024x1, .f32⟩
  | .hbm, ⟨11, _⟩ => ⟨S1x100000, .f32⟩
  | .hbm, ⟨12, _⟩ => ⟨S1024x100000, .f32⟩
  | .hbm, ⟨13, _⟩ => ⟨S1024x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S_, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S1024x64_S1024_d1 : S1024x64.ReducesTo [1] S1024
  h_S_ : 0 < S_.numel
  reducesTo_S100000x64_S100000_d1 : S100000x64.ReducesTo [1] S100000
  transposes_S100000x64_S64x100000_1_0 : S100000x64.Transposes [1, 0] S64x100000
  bcast_S1024_S1024x1_0 : S1024.BroadcastsInDim S1024x1 (![0] : Fin 1 → Fin S1024x1.rank)
  bcast_S100000_S1x100000_1 : S100000.BroadcastsInDim S1x100000 (![1] : Fin 1 → Fin S1x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  reducesTo_S1024x100000_S1024_d1 : S1024x100000.ReducesTo [1] S1024
  reducesTo_S1024_S_d0 : S1024.ReducesTo [0] S_
  dot_S1024x64_S64x100000_S1024x100000_1_0_0_1_n_n_wf : DotDims.WF S1024x64 S64x100000 S1024x100000 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.Pieces.lean ====
/-
  What one run of the kernel body leaves behind, per control case, as the body's own arithmetic.

  The body keeps a running minimum in an 8 × 1024 scratch. At the first block it sets the scratch to +inf and then, as
  at every block, replaces it by its minimum with the block's per-sublane minima; at the last block it also writes the
  row of results, computed from the updated scratch and the transposed queries, and that row's sum. Each buffer is
  written by stores that cover it whole, so what it holds afterwards is the last store's value, a covered load of the
  scratch reading the value stored just before.
-/
import proofs.«138883_g39470749450747_cont_8to1_b_1176_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle block: the running minimum `xs0` is replaced by its minimum with the block's per-sublane minima. -/
theorem scratch_B (c : Dev nD) (i : grid0.Coords) (a1 : Memref sig .tc .vmem S2000x64 .f32) (h1 : a1.IsWhole) (a2 : Memref sig .tc .vmem S64x1024 .f32) (h2 : a2.IsWhole) (a3 : Memref sig .tc .vmem S64x1024 .bf16) (h3 : a3.IsWhole) (a4 : Memref sig .tc .vmem S1x1024 .f32) (h4 : a4.IsWhole) (a5 : Memref sig .tc .vmem S1x1 .f32) (h5 : a5.IsWhole) (a6 : Memref sig .tc .vmem S8x1024 .f32) (h6 : a6.IsWhole) (hc0 : ¬cond0_0 i) (hc1 : ¬cond0_1 i)
    (x0 : Vec F S2000x64 .f32) (x1 : Vec F S64x1024 .f32) (x2 : Vec F S64x1024 .bf16) (xs0 : Vec F S8x1024 .f32) :
    sout0_B_0 c i a1 h1 a2 h2 a3 h3 a4 h4 a5 h5 a6 h6 hc0 hc1 x0 x1 x2 xs0 = k0_pay2 x0 x2 xs0 := by
  unfold sout0_B_0
  rw [View.read_writes_eq_canon _ _ _ (scover0_B_0 c i a1 h1 a2 h2 a3 h3 a4 h4 a5 h5 a6 h6 hc0 hc1 x0 x1 x2 xs0)]
  unfold kernelRun0_B
  dsimp only
  sl_unfold_words
  rw [View.canon_unit_zero hz]
  simp only [View.readAt_eq_ld, h1.read_unread, h2.read_unread, h3.read_unread, h6.read_unread, View.readCov_unit_zero (S := S8x1024) _ hz, View.ld_unit_zero (S := S2000x64) hz, View.ld_unit_zero (S := S64x1024) hz, View.ld_unit_zero (S := S8x1024) hz]

/-- The first block: the running minimum is first set to +inf everywhere, read back, and then updated as in a middle block. -/
theorem scratch_A (c : Dev nD) (i : grid0.Coords) (a1 : Memref sig .tc .vmem S2000x64 .f32) (h1 : a1.IsWhole) (a2 : Memref sig .tc .vmem S64x1024 .f32) (h2 : a2.IsWhole) (a3 : Memref sig .tc .vmem S64x1024 .bf16) (h3 : a3.IsWhole) (a4 : Memref sig .tc .vmem S1x1024 .f32) (h4 : a4.IsWhole) (a5 : Memref sig .tc .vmem S1x1 .f32) (h5 : a5.IsWhole) (a6 : Memref sig .tc .vmem S8x1024 .f32) (h6 : a6.IsWhole) (hc0 : cond0_0 i) (hc1 : ¬cond0_1 i)
    (x0 : Vec F S2000x64 .f32) (x1 : Vec F S64x1024 .f32) (x2 : Vec F S64x1024 .bf16) :
    sout0_A_0 c i a1 h1 a2 h2 a3 h3 a4 h4 a5 h5 a6 h6 hc0 hc1 x0 x1 x2 = k0_pay2 x0 x2 (k0_pay1 (F := F)) := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_cons_unit_zero (S := S8x1024) hz]
  simp only [View.readAt_eq_ld, h1.read_unread, h2.read_unread, h3.read_unread, h6.read_unread, View.readCov_unit_zero (S := S8x1024) _ hz, View.ld_unit_zero (S := S2000x64) hz, View.ld_unit_zero (S := S64x1024) hz, View.ld_unit_zero (S := S8x1024) hz]

/-- The last block updates the running minimum like a middle block … -/
theorem scratch_C (c : Dev nD) (i : grid0.Coords) (a1 : Memref sig .tc .vmem S2000x64 .f32) (h1 : a1.IsWhole) (a2 : Memref sig .tc .vmem S64x1024 .f32) (h2 : a2.IsWhole) (a3 : Memref sig .tc .vmem S64x1024 .bf16) (h3 : a3.IsWhole) (a4 : Memref sig .tc .vmem S1x1024 .f32) (h4 : a4.IsWhole) (a5 : Memref sig .tc .vmem S1x1 .f32) (h5 : a5.IsWhole) (a6 : Memref sig .tc .vmem S8x1024 .f32) (h6 : a6.IsWhole) (hc0 : ¬cond0_0 i) (hc1 : cond0_1 i)
    (x0 : Vec F S2000x64 .f32) (x1 : Vec F S64x1024 .f32) (x2 : Vec F S64x1024 .bf16) (xs0 : Vec F S8x1024 .f32) :
    sout0_C_0 c i a1 h1 a2 h2 a3 h3 a4 h4 a5 h5 a6 h6 hc0 hc1 x0 x1 x2 xs0 = k0_pay2 x0 x2 xs0 := by
  unfold sout0_C_0
  rw [View.read_writes_eq_canon _ _ _ (scover0_C_0 c i a1 h1 a2 h2 a3 h3 a4 h4 a5 h5 a6 h6 hc0 hc1 x0 x1 x2 xs0)]
  unfold kernelRun0_C
  dsimp only
  sl_unfold_words
  rw [View.canon_unit_zero hz]
  simp only [View.readAt_eq_ld, h1.read_unread, h2.read_unread, h3.read_unread, h6.read_unread, View.readCov_unit_zero (S := S8x1024) _ hz, View.ld_unit_zero (S := S2000x64) hz, View.ld_unit_zero (S := S64x1024) hz, View.ld_unit_zero (S := S8x1024) hz]

/-- … then writes the row of results from the updated running minimum and the transposed queries … -/
theorem out3_C (c : Dev nD) (i : grid0.Coords) (a1 : Memref sig .tc .vmem S2000x64 .f32) (h1 : a1.IsWhole) (a2 : Memref sig .tc .vmem S64x1024 .f32) (h2 : a2.IsWhole) (a3 : Memref sig .tc .vmem S64x1024 .bf16) (h3 : a3.IsWhole) (a4 : Memref sig .tc .vmem S1x1024 .f32) (h4 : a4.IsWhole) (a5 : Memref sig .tc .vmem S1x1 .f32) (h5 : a5.IsWhole) (a6 : Memref sig .tc .vmem S8x1024 .f32) (h6 : a6.IsWhole) (hc0 : ¬cond0_0 i) (hc1 : cond0_1 i)
    (x0 : Vec F S2000x64 .f32) (x1 : Vec F S64x1024 .f32) (x2 : Vec F S64x1024 .bf16) (xs0 : Vec F S8x1024 .f32) :
    out0_C_3 c i a1 h1 a2 h2 a3 h3 a4 h4 a5 h5 a6 h6 hc0 hc1 x0 x1 x2 xs0 = k0_pay3 x1 (k0_pay2 x0 x2 xs0) := by
  unfold out0_C_3
  rw [View.read_writes_eq_canon _ _ _ (cover0_C_3 c i a1 h1 a2 h2 a3 h3 a4 h4 a5 h5 a6 h6 hc0 hc1 x0 x1 x2 xs0)]
  unfold kernelRun0_C
  dsimp only
  sl_unfold_words
  rw [View.canon_unit_zero hz]
  simp only [View.readAt_eq_ld, h1.read_unread, h2.read_unread, h3.read_unread, h6.read_unread, View.readCov_unit_zero (S := S8x1024) _ hz, View.ld_unit_zero (S := S2000x64) hz, View.ld_unit_zero (S := S64x1024) hz, View.ld_unit_zero (S := S8x1024) hz]

/-- … and the row's sum. -/
theorem out4_C (c : Dev nD) (i : grid0.Coords) (a1 : Memref sig .tc .vmem S2000x64 .f32) (h1 : a1.IsWhole) (a2 : Memref sig .tc .vmem S64x1024 .f32) (h2 : a2.IsWhole) (a3 : Memref sig .tc .vmem S64x1024 .bf16) (h3 : a3.IsWhole) (a4 : Memref sig .tc .vmem S1x1024 .f32) (h4 : a4.IsWhole) (a5 : Memref sig .tc .vmem S1x1 .f32) (h5 : a5.IsWhole) (a6 : Memref sig .tc .vmem S8x1024 .f32) (h6 : a6.IsWhole) (hc0 : ¬cond0_0 i) (hc1 : cond0_1 i)
    (x0 : Vec F S2000x64 .f32) (x1 : Vec F S64x1024 .f32) (x2 : Vec F S64x1024 .bf16) (xs0 : Vec F S8x1024 .f32) :
    out0_C_4 c i a1 h1 a2 h2 a3 h3 a4 h4 a5 h5 a6 h6 hc0 hc1 x0 x1 x2 xs0 = k0_pay4 x1 (k0_pay2 x0 x2 xs0) := by
  unfold out0_C_4
  rw [View.read_writes_eq_canon _ _ _ (cover0_C_4 c i a1 h1 a2 h2 a3 h3 a4 h4 a5 h5 a6 h6 hc0 hc1 x0 x1 x2 xs0)]
  unfold kernelRun0_C
  dsimp only
  sl_unfold_words
  rw [View.canon_unit_zero hz]
  simp only [View.readAt_eq_ld, h1.read_unread, h2.read_unread, h3.read_unread, h6.read_unread, View.readCov_unit_zero (S := S8x1024) _ hz, View.ld_unit_zero (S := S2000x64) hz, View.ld_unit_zero (S := S64x1024) hz, View.ld_unit_zero (S := S8x1024) hz]

end Cert.KernelIdeal.Pieces

end
-- ==== Proof.Consts.lean ====
/-
  The four float words the two programs spell, as the extended reals they denote: the zero the sums start from, the
  factor two of the reference's cross term, the factor minus two the kernel folds into its matrix operand, and the
  positive infinity every minimum starts from.
-/
import Idealize.ShloMosaic.PureOps.Ideal

noncomputable section

namespace Cert.Consts

open Idealize.ShloMosaic

/-- The word of `+0.0` denotes zero. -/
theorem ofBits_zero : Ideal.ofBits .f32 0x00000000#32 = 0 := by
  simp [Ideal.ofBits, Ideal.ieee]

/-- The word of `2.0` denotes the real two. -/
theorem ofBits_two : Ideal.ofBits .f32 0x40000000#32 = ((2 : ℝ) : EReal) := by
  simp [Ideal.ofBits, Ideal.ieee, -EReal.coe_mul]; norm_num

/-- The word of `-2.0` denotes the real minus two. -/
theorem ofBits_neg_two : Ideal.ofBits .f32 0xC0000000#32 = ((-2 : ℝ) : EReal) := by
  simp [Ideal.ofBits, Ideal.ieee, -EReal.coe_mul]; norm_num

/-- The word of `+inf` denotes the top of the extended reals. -/
theorem ofBits_inf : Ideal.ofBits .f32 0x7F800000#32 = (⊤ : EReal) := by
  simp [Ideal.ofBits, Ideal.ieee]

end Cert.Consts

end
-- ==== Proof.Distance.lean ====
/-
  Nearest key by squared distance, two ways, over the extended reals.

  For queries x (1024 rows of 64) and keys y (100000 rows of 64):
  * the fused form takes, per key k, the cross term with the pre-scaled query plus the key's squared norm,
      keyTerm c x y k q = Σ_d y k d · (c · x q d) + Σ_d y k d · y k d,
    minimises it over the keys in the order a blocked scan meets them — sublane s, then block t, then group g inside
    the block, the key being 2000·t + 8·g + s — and adds the query's squared norm Σ_d x q d · x q d afterwards;
  * the plain form minimises the full squared distance
      dist c₂ x y q k = (Σ_d x q d · x q d + Σ_d y k d · y k d) − c₂ · Σ_d x q d · y k d
    over all keys at once.
  With c = −2, c₂ = 2 and every entry a real number the two agree (`closest_eq`): (s, t, g) ↦ 2000·t + 8·g + s is a
  bijection onto the keys, adding a real constant commutes with a finite minimum, and on the reals
  Σ y·(−2·x) + Σ y² + Σ x² = (Σ x² + Σ y²) − 2·Σ x·y.
-/
import Idealize.ShloMosaic.PureOps.Ideal

noncomputable section

open scoped BigOperators

namespace Cert.Nearest

/-- The key a blocked scan meets at block `t`, group `g` of the block, sublane `s`: row 2000·t + 8·g + s. -/
def keyOf (t : Fin 50) (g : Fin 250) (s : Fin 8) : Fin 100000 :=
  ⟨t.val * 2000 + g.val * 8 + s.val, by have := t.isLt; have := g.isLt; have := s.isLt; omega⟩

/-- A query's squared norm. -/
def sqNorm (x : Fin 1024 → Fin 64 → EReal) (q : Fin 1024) : EReal := ∑ d : Fin 64, x q d * x q d

/-- The fused form's per-key quantity: the key against the query scaled by `c`, plus the key's squared norm. -/
def keyTerm (c : EReal) (x : Fin 1024 → Fin 64 → EReal) (y : Fin 100000 → Fin 64 → EReal) (k : Fin 100000)
    (q : Fin 1024) : EReal :=
  (∑ d : Fin 64, y k d * (c * x q d)) + ∑ d : Fin 64, y k d * y k d

/-- The fused form's minimum over the blocks `t ≤ n` at sublane `s`: what a running minimum holds after block `n`. -/
def partialMin (c : EReal) (x : Fin 1024 → Fin 64 → EReal) (y : Fin 100000 → Fin 64 → EReal) (n : ℕ) (s : Fin 8)
    (q : Fin 1024) : EReal :=
  (Finset.univ.filter fun t : Fin 50 => t.val ≤ n).inf fun t =>
    (Finset.univ : Finset (Fin 250)).inf fun g => keyTerm c x y (keyOf t g s) q

/-- The fused form's result: the minimum over the sublanes of the full running minimum, plus the query's squared norm. -/
def closestK (c : EReal) (x : Fin 1024 → Fin 64 → EReal) (y : Fin 100000 → Fin 64 → EReal) (q : Fin 1024) : EReal :=
  ((Finset.univ : Finset (Fin 8)).inf fun s => partialMin c x y 49 s q) + sqNorm x q

/-- The plain form's squared distance from query `q` to key `k`, with the cross term scaled by `c₂`. -/
def dist (c₂ : EReal) (x : Fin 1024 → Fin 64 → EReal) (y : Fin 100000 → Fin 64 → EReal) (q : Fin 1024)
    (k : Fin 100000) : EReal :=
  (sqNorm x q + ∑ d : Fin 64, y k d * y k d) - c₂ * ∑ d : Fin 64, x q d * y k d

/-- The plain form's result: the minimum of the squared distance over every key. -/
def closestR (c₂ : EReal) (x : Fin 1024 → Fin 64 → EReal) (y : Fin 100000 → Fin 64 → EReal) (q : Fin 1024) : EReal :=
  (Finset.univ : Finset (Fin 100000)).inf fun k => dist c₂ x y q k

/-- The coercion of the reals into the extended reals commutes with finite sums. -/
private theorem coe_sum {ι : Type} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The identity on the reals: Σ y·(−2·x) + Σ y² + Σ x² = (Σ x² + Σ y²) − 2·Σ x·y. -/
private theorem expand_real (X Y : Fin 64 → ℝ) :
    ((∑ d, Y d * (-2 * X d)) + ∑ d, Y d * Y d) + ∑ d, X d * X d
      = ((∑ d, X d * X d) + ∑ d, Y d * Y d) - 2 * ∑ d, X d * Y d := by
  have h : (∑ d, Y d * (-2 * X d)) = -2 * ∑ d, X d * Y d := by
    rw [Finset.mul_sum]
    exact Finset.sum_congr rfl fun d _ => by ring
  rw [h]
  ring

/-- The same identity with every entry read in the extended reals. -/
private theorem expand_ereal (X Y : Fin 64 → ℝ) :
    ((∑ d, (Y d : EReal) * (((-2 : ℝ) : EReal) * (X d : EReal))) + ∑ d, (Y d : EReal) * (Y d : EReal))
        + ∑ d, (X d : EReal) * (X d : EReal)
      = ((∑ d, (X d : EReal) * (X d : EReal)) + ∑ d, (Y d : EReal) * (Y d : EReal))
        - ((2 : ℝ) : EReal) * ∑ d, (X d : EReal) * (Y d : EReal) := by
  simp only [← EReal.coe_mul, ← coe_sum, ← EReal.coe_add, ← EReal.coe_sub]
  exact congrArg _ (expand_real X Y)

/-- The blocked scan meets every key exactly: minimising over sublane, block and group is minimising over all keys. -/
private theorem scan_eq (f : Fin 100000 → EReal) :
    ((Finset.univ : Finset (Fin 8)).inf fun s =>
      (Finset.univ.filter fun t : Fin 50 => t.val ≤ 49).inf fun t =>
        (Finset.univ : Finset (Fin 250)).inf fun g => f (keyOf t g s))
      = (Finset.univ : Finset (Fin 100000)).inf f := by
  apply le_antisymm
  · refine Finset.le_inf fun k _ => ?_
    have hk := k.isLt
    have hkey : keyOf ⟨k.val / 2000, by omega⟩ ⟨(k.val % 2000) / 8, by omega⟩ ⟨k.val % 8, by omega⟩ = k := by
      apply Fin.ext
      simp only [keyOf]
      omega
    have ht : (⟨k.val / 2000, by omega⟩ : Fin 50) ∈ Finset.univ.filter fun t : Fin 50 => t.val ≤ 49 := by
      rw [Finset.mem_filter]
      exact ⟨Finset.mem_univ _, by simp only; omega⟩
    refine Finset.inf_le_of_le (Finset.mem_univ (⟨k.val % 8, by omega⟩ : Fin 8)) ?_
    refine Finset.inf_le_of_le ht ?_
    refine Finset.inf_le_of_le (Finset.mem_univ (⟨(k.val % 2000) / 8, by omega⟩ : Fin 250)) ?_
    rw [hkey]
  · refine Finset.le_inf fun s _ => Finset.le_inf fun t _ => Finset.le_inf fun g _ => ?_
    exact Finset.inf_le (Finset.mem_univ _)

/-- Adding a real number commutes with a finite minimum (the empty minimum ⊤ stays ⊤). -/
private theorem inf_add_coe {ι : Type} (s : Finset ι) (f : ι → EReal) (r : ℝ) :
    s.inf f + (r : EReal) = s.inf fun k => f k + (r : EReal) :=
  Finset.apply_inf_eq_inf_comp_of_linearOrder (fun a : EReal => a + (r : EReal))
    (fun _ _ h => add_le_add h le_rfl) (EReal.top_add_coe r)

/-- A fold of `min` from the top is the finite infimum. -/
theorem fold_min_top (ι : Type) (s : Finset ι) (f : ι → EReal) : s.fold min ⊤ f = s.inf f := by
  classical
  induction s using Finset.induction_on with
  | empty => rw [Finset.fold_empty, Finset.inf_empty]
  | insert a s ha ih => rw [Finset.fold_insert ha, Finset.inf_insert, ih]

/-- On real entries the two forms agree. -/
theorem closest_eq (x : Fin 1024 → Fin 64 → EReal) (y : Fin 100000 → Fin 64 → EReal)
    (hx : ∀ q d, ∃ r : ℝ, x q d = (r : EReal)) (hy : ∀ k d, ∃ r : ℝ, y k d = (r : EReal)) (q : Fin 1024) :
    closestK ((-2 : ℝ) : EReal) x y q = closestR ((2 : ℝ) : EReal) x y q := by
  choose X hX using hx
  choose Y hY using hy
  have hsq : sqNorm x q = ((∑ d, X q d * X q d : ℝ) : EReal) := by
    simp only [sqNorm, hX, ← EReal.coe_mul, ← coe_sum]
  unfold closestK closestR partialMin
  rw [scan_eq (fun k => keyTerm _ x y k q), hsq, inf_add_coe]
  refine Finset.inf_congr rfl fun k _ => ?_
  rw [← hsq]
  simp only [keyTerm, sqNorm, dist, hX, hY]
  exact expand_ereal (X q) (Y k)

/-- Block `t`'s own minimum at sublane `s`: over the 250 groups of the block. -/
def blockMin (c : EReal) (x : Fin 1024 → Fin 64 → EReal) (y : Fin 100000 → Fin 64 → EReal) (t : Fin 50) (s : Fin 8)
    (q : Fin 1024) : EReal :=
  (Finset.univ : Finset (Fin 250)).inf fun g => keyTerm c x y (keyOf t g s) q

/-- After the first block the running minimum is that block's minimum. -/
theorem partialMin_zero (c : EReal) (x : Fin 1024 → Fin 64 → EReal) (y : Fin 100000 → Fin 64 → EReal) (s : Fin 8)
    (q : Fin 1024) : partialMin c x y 0 s q = blockMin c x y ⟨0, by omega⟩ s q := by
  unfold partialMin blockMin
  have h : (Finset.univ.filter fun t : Fin 50 => t.val ≤ 0) = {(⟨0, by omega⟩ : Fin 50)} := by
    ext t
    rw [Finset.mem_filter, Finset.mem_singleton, Fin.ext_iff]
    simp only [Finset.mem_univ, true_and]
    omega
  rw [h, Finset.inf_singleton]

/-- Each later block replaces the running minimum by its minimum with the block's own. -/
theorem partialMin_succ (c : EReal) (x : Fin 1024 → Fin 64 → EReal) (y : Fin 100000 → Fin 64 → EReal) (n : ℕ)
    (h : n + 1 < 50) (s : Fin 8) (q : Fin 1024) :
    partialMin c x y (n + 1) s q = min (partialMin c x y n s q) (blockMin c x y ⟨n + 1, h⟩ s q) := by
  unfold partialMin blockMin
  have hs : (Finset.univ.filter fun t : Fin 50 => t.val ≤ n + 1)
      = insert (⟨n + 1, h⟩ : Fin 50) (Finset.univ.filter fun t : Fin 50 => t.val ≤ n) := by
    ext t
    rw [Finset.mem_filter, Finset.mem_insert, Finset.mem_filter, Fin.ext_iff]
    simp only [Finset.mem_univ, true_and]
    omega
  rw [hs, Finset.inf_insert, min_comm]

end Cert.Nearest

end
-- ==== Proof.LibColumnLayout.lean ====
/-
  Two reads of column layouts at an index, at any extents and any element type.

  A vector of length a viewed as a column [a, 1] has, at (i, u), the vector's entry i: the row-major position of (i, u)
  in [a, 1] is i · 1 + u with u = 0, which is the position of i in [a].
  A column [a, 1] broadcast across [a, b] has, at (p, c), the column's entry (p, 0): the broadcast keeps the coordinate
  on an axis of the same extent and reads 0 on an axis of extent one.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ColumnLayout
-- ==== Proof.Payload.lean ====
/-
  The body's arithmetic read at an index, at the ideal values.

  For one block of 2000 keys `v3` (2000 × 64), the pre-scaled transposed queries `v8` (64 × 1024) and the running
  minimum `v15` (8 × 1024), the update stores at (s, q) the minimum of `v15 (s, q)` and, over the 250 groups g of eight
  rows, of the row 8·g + s's cross term Σ_d v3 (8g+s, d) · v8 (d, q) plus that row's squared norm Σ_d v3 (8g+s, d)².
  The result row holds at q the minimum over the eight sublanes of the running minimum plus the squared norm of
  column q of the transposed queries; the scalar is the sum of that row.
-/
import proofs.«138883_g39470749450747_cont_8to1_b_1176_2_alg».proof.Proof.Gen.KernelIdeal.Skeleton
import proofs.«138883_g39470749450747_cont_8to1_b_1176_2_alg».proof.Proof.Consts
import proofs.«138883_g39470749450747_cont_8to1_b_1176_2_alg».proof.Proof.Distance
import proofs.«138883_g39470749450747_cont_8to1_b_1176_2_alg».proof.Proof.LibColumnLayout
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- Row 8·g + s of a block: group `g`, sublane `s`. -/
def rowOf (g : Fin 250) (s : Fin 8) : Fin 2000 :=
  ⟨g.val * 8 + s.val, by have := g.isLt; have := s.isLt; omega⟩

/-- A minimum-reduction over one axis, from +inf, is the finite infimum over that axis's coordinates. -/
theorem multiReduction_min_single {s t : Shape} {a : Fin s.rank} {φ : FTy} (src : FVec Ideal s φ) (acc : BitVec φ.bits)
    (h : s.Reduces [a] t) (hφ : FKind.Formats φ) (hacc : acc = FKind.minimumf.neutral φ hφ)
    (htop : Ideal.ofBits φ acc = (⊤ : EReal)) (j : t.Idx) :
    multiReduction .minimumf [a] t src acc h hφ hacc j
      = (Finset.univ : Finset (Fin (s.size a))).inf fun k => src (h.lift j k) := by
  rw [multiReduction_minimumf_eq_fold, h.fold_filter_drop_single]
  show Finset.fold min (Ideal.ofBits φ acc) _ _ = _
  rw [htop, Cert.Nearest.fold_min_top]
  rfl

/-! ### The matrix product at (r, q) -/

theorem lhs_cross_0 (i : S2000x1024.Idx) (k : dot_S2000x64_S64x1024_S2000x1024_1_0_0_1_n_n.contr.Idx) :
    (dot_S2000x64_S64x1024_S2000x1024_1_0_0_1_n_n.lhsIdx i k 0).val = (i 0).val := by
  unfold DotDims.lhsIdx
  rw [dif_neg (show ¬(0 : Fin S2000x64.rank) ∈ dot_S2000x64_S64x1024_S2000x1024_1_0_0_1_n_n.lhsBatch by decide), dif_pos (show (0 : Fin S2000x64.rank) ∈ dot_S2000x64_S64x1024_S2000x1024_1_0_0_1_n_n.lhsNonContracting by decide)]
  rfl
theorem lhs_cross_1 (i : S2000x1024.Idx) (k : dot_S2000x64_S64x1024_S2000x1024_1_0_0_1_n_n.contr.Idx) :
    (dot_S2000x64_S64x1024_S2000x1024_1_0_0_1_n_n.lhsIdx i k 1).val = (k ⟨0, by decide⟩).val :=
  dot_S2000x64_S64x1024_S2000x1024_1_0_0_1_n_n.lhsIdx_val_of_single rfl i k
theorem rhs_cross_0 (i : S2000x1024.Idx) (k : dot_S2000x64_S64x1024_S2000x1024_1_0_0_1_n_n.contr.Idx) :
    (dot_S2000x64_S64x1024_S2000x1024_1_0_0_1_n_n.rhsIdx i k 0).val = (k ⟨0, by decide⟩).val :=
  dot_S2000x64_S64x1024_S2000x1024_1_0_0_1_n_n.rhsIdx_val_of_single rfl i k
theorem rhs_cross_1 (i : S2000x1024.Idx) (k : dot_S2000x64_S64x1024_S2000x1024_1_0_0_1_n_n.contr.Idx) :
    (dot_S2000x64_S64x1024_S2000x1024_1_0_0_1_n_n.rhsIdx i k 1).val = (i 1).val := by
  unfold DotDims.rhsIdx
  rw [dif_neg (show ¬(1 : Fin S64x1024.rank) ∈ dot_S2000x64_S64x1024_S2000x1024_1_0_0_1_n_n.rhsBatch by decide), dif_pos (show (1 : Fin S64x1024.rank) ∈ dot_S2000x64_S64x1024_S2000x1024_1_0_0_1_n_n.rhsNonContracting by decide)]
  rfl

/-- The block's product with the queries, into zero, at (r, q): the sum over the 64 coordinates. -/
theorem cross_apply (l : FVec Ideal S2000x64 .bf16) (w : FVec Ideal S64x1024 .bf16) (r : Fin 2000) (q : Fin 1024) :
    matmul dot_S2000x64_S64x1024_S2000x1024_1_0_0_1_n_n none l w (constant S2000x1024 .f32 0x00000000#32) (ix2 r q)
      = ∑ d : Fin 64, l (ix2 r d) * w (ix2 d q) := by
  simp only [matmul]
  rw [Ideal.matmul_constant_zero_apply, ← Equiv.sum_comp (ValueIdx.contrEquiv1 dot_S2000x64_S64x1024_S2000x1024_1_0_0_1_n_n 64 rfl rfl).symm]
  refine Finset.sum_congr rfl fun k _ => ?_
  have hk := ValueIdx.contrEquiv1_symm_val dot_S2000x64_S64x1024_S2000x1024_1_0_0_1_n_n 64 rfl rfl k
  have el : dot_S2000x64_S64x1024_S2000x1024_1_0_0_1_n_n.lhsIdx (ix2 r q) ((ValueIdx.contrEquiv1 dot_S2000x64_S64x1024_S2000x1024_1_0_0_1_n_n 64 rfl rfl).symm k) = ix2 r k := funext fun a => Fin.ext (by
    match a with
    | ⟨0, _⟩ => exact lhs_cross_0 _ _
    | ⟨1, _⟩ => exact (lhs_cross_1 _ _).trans hk)
  have er : dot_S2000x64_S64x1024_S2000x1024_1_0_0_1_n_n.rhsIdx (ix2 r q) ((ValueIdx.contrEquiv1 dot_S2000x64_S64x1024_S2000x1024_1_0_0_1_n_n 64 rfl rfl).symm k) = ix2 k q := funext fun a => Fin.ext (by
    match a with
    | ⟨0, _⟩ => exact (rhs_cross_0 _ _).trans hk
    | ⟨1, _⟩ => exact rhs_cross_1 _ _)
  rw [el, er]

/-! ### The rows' squared norms, as a column spread over the lanes -/

/-- The squared norms of the block's rows, cast to a column and broadcast along the lanes, at (r, q). -/
theorem rownorm_apply (v3 : FVec Ideal S2000x64 .f32) (hφ : FKind.Formats .f32)
    (hacc : (0x00000000#32 : BitVec 32) = FKind.add.neutral .f32 hφ) (r : Fin 2000) (q : Fin 1024) :
    broadcastTo S2000x1024 (shapeCast S2000x1 (multiReduction .add [1] S2000 (mulf v3 v3) 0x00000000#32 reduces_S2000x64_S2000 hφ hacc) shapeCasts_S2000_S2000x1) broadcasts_S2000x1_S2000x1024 (ix2 r q)
      = ∑ d : Fin 64, v3 (ix2 r d) * v3 (ix2 r d) := by
  refine (ColumnLayout.broadcastTo_a1_ab_apply _ _ r q).trans ?_
  refine (ColumnLayout.shapeCast_a_a1_apply _ _ r 0).trans ?_
  refine (Ideal.multiReduction_add_single _ _ _ hφ hacc (ix1 r)).trans ?_
  refine Finset.sum_congr rfl fun d _ => ?_
  have e : reduces_S2000x64_S2000.lift (ix1 r) d = ix2 r d := funext fun a => Fin.ext (by
    match a with
    | ⟨0, _⟩ => rfl
    | ⟨1, _⟩ => rfl)
  exact (congrArg (mulf v3 v3) e).trans rfl

/-! ### Eight rows to a group -/

/-- The 2000 × 1024 array viewed as 250 groups of 8 rows: entry (g, s, q) is row 8·g + s. -/
theorem group_apply (v : FVec Ideal S2000x1024 .f32) (g : Fin 250) (s : Fin 8) (q : Fin 1024) :
    shapeCast S250x8x1024 v shapeCasts_S2000x1024_S250x8x1024 (ix3 g s q) = v (ix2 (rowOf g s) q) :=
  shapeCast_apply v _ _ _ (by
    rw [Shape.rowMajor_val_two, Shape.rowMajor_val_three]
    rfl)

/-! ### The update of the running minimum -/

/-- The per-key quantity of row `r` of a block against query column `q`. -/
def rowTerm (v3 : FVec Ideal S2000x64 .f32) (v8 : FVec Ideal S64x1024 .bf16) (r : Fin 2000) (q : Fin 1024) : EReal :=
  (∑ d : Fin 64, v3 (ix2 r d) * v8 (ix2 d q)) + ∑ d : Fin 64, v3 (ix2 r d) * v3 (ix2 r d)

theorem pay2_apply (v3 : Vec Ideal S2000x64 .f32) (v8 : Vec Ideal S64x1024 .bf16) (v15 : Vec Ideal S8x1024 .f32)
    (s : Fin 8) (q : Fin 1024) :
    k0_pay2 (F := Ideal) v3 v8 v15 (ix2 s q)
      = min (v15 (ix2 s q)) ((Finset.univ : Finset (Fin 250)).inf fun g => rowTerm v3 v8 (rowOf g s) q) := by
  unfold k0_pay2
  refine (congrFun (shapeCast_self _ _) (ix2 s q)).trans ?_
  refine congrArg (min (v15 (ix2 s q))) ?_
  refine (multiReduction_min_single _ _ _ _ _ Cert.Consts.ofBits_inf (ix2 s q)).trans ?_
  refine Finset.inf_congr rfl fun g _ => ?_
  have e : reduces_S250x8x1024_S8x1024.lift (ix2 s q) g = ix3 g s q := funext fun a => Fin.ext (by
    match a with
    | ⟨0, _⟩ => rfl
    | ⟨1, _⟩ => rfl
    | ⟨2, _⟩ => rfl)
  refine (congrArg (shapeCast S250x8x1024 _ shapeCasts_S2000x1024_S250x8x1024) e).trans ?_
  refine (group_apply _ g s q).trans ?_
  refine congrArg₂ (· + ·) ?_ (rownorm_apply v3 _ _ (rowOf g s) q)
  refine (cross_apply _ _ (rowOf g s) q).trans ?_
  refine Finset.sum_congr rfl fun d _ => ?_
  rw [shapeCast_self]
  rfl

/-! ### The row of results and its sum -/

/-- The result row at q: the minimum over the eight sublanes of the running minimum, plus the squared norm of column q of
    the transposed queries. -/
theorem pay3_apply (v23 : Vec Ideal S64x1024 .f32) (v28 : Vec Ideal S8x1024 .f32) (u : Fin 1) (q : Fin 1024) :
    k0_pay3 (F := Ideal) v23 v28 (ix2 u q)
      = ((Finset.univ : Finset (Fin 8)).inf fun s => v28 (ix2 s q)) + ∑ d : Fin 64, v23 (ix2 d q) * v23 (ix2 d q) := by
  unfold k0_pay3
  have hu : u.val = 0 := by omega
  have pos : (S1024.rowMajor (ix1 q)).val = (S1x1024.rowMajor (ix2 u q)).val := by
    rw [Shape.rowMajor_val_one, Shape.rowMajor_val_two]
    show q.val = u.val * 1024 + q.val
    rw [hu]; omega
  refine congrArg₂ (· + ·) ?_ ?_
  · refine (shapeCast_apply _ _ (ix2 u q) (ix1 q) pos).trans ?_
    refine (multiReduction_min_single _ _ _ _ _ Cert.Consts.ofBits_inf (ix1 q)).trans ?_
    refine Finset.inf_congr rfl fun s _ => ?_
    have e : reduces_S8x1024_S1024.lift (ix1 q) s = ix2 s q := funext fun a => Fin.ext (by
      match a with
      | ⟨0, _⟩ => rfl
      | ⟨1, _⟩ => rfl)
    exact congrArg v28 e
  · refine (shapeCast_apply _ _ (ix2 u q) (ix1 q) pos).trans ?_
    refine (Ideal.multiReduction_add_single _ _ _ _ _ (ix1 q)).trans ?_
    refine Finset.sum_congr rfl fun d _ => ?_
    have e : reduces_S64x1024_S1024.lift (ix1 q) d = ix2 d q := funext fun a => Fin.ext (by
      match a with
      | ⟨0, _⟩ => rfl
      | ⟨1, _⟩ => rfl)
    show shapeCast S64x1024 v23 shapeCasts_S64x1024_S64x1024 (reduces_S64x1024_S1024.lift (ix1 q) d)
        * shapeCast S64x1024 v23 shapeCasts_S64x1024_S64x1024 (reduces_S64x1024_S1024.lift (ix1 q) d) = _
    rw [e, shapeCast_self]
    rfl

/-- The 1 × 1 × 1024 index set is its last coordinate's range. -/
def laneEquiv : S1x1x1024.Idx ≃ Fin 1024 where
  toFun i := i 2
  invFun q := ix3 (0 : Fin 1) (0 : Fin 1) q
  left_inv i := funext fun a => Fin.ext (by
    match a with
    | ⟨0, _⟩ => have h : (i 0).val < 1 := (i 0).isLt; show 0 = (i 0).val; omega
    | ⟨1, _⟩ => have h : (i 1).val < 1 := (i 1).isLt; show 0 = (i 1).val; omega
    | ⟨2, _⟩ => rfl)
  right_inv _ := rfl

/-- The scalar result: the sum of the result row. -/
theorem pay4_apply (v23 : Vec Ideal S64x1024 .f32) (v28 : Vec Ideal S8x1024 .f32) (j : S1x1.Idx) :
    k0_pay4 (F := Ideal) v23 v28 j = ∑ q : Fin 1024, k0_pay3 (F := Ideal) v23 v28 (ix2 (0 : Fin 1) q) := by
  unfold k0_pay4 extractAt
  refine (shapeCast_apply _ _ _ (ix1 (0 : Fin 1)) (by
    rw [Shape.rowMajor_val_one, Shape.rowMajor_val_three]; rfl)).trans ?_
  refine (Ideal.multiReduction_add_total _ _ _ (fun b => by match b with | ⟨0, _⟩ => rfl) _ _ (ix1 (0 : Fin 1))).trans ?_
  rw [← Equiv.sum_comp laneEquiv.symm]
  refine Finset.sum_congr rfl fun q _ => ?_
  exact shapeCast_apply _ _ _ (ix2 (0 : Fin 1) q) (by
    rw [Shape.rowMajor_val_two, Shape.rowMajor_val_three]; rfl)

end Cert.KernelIdeal.Payload

end
-- ==== Proof.Accum.lean ====
/-
  The running minimum, block by block.

  The scratch after block n holds, at (s, q), the minimum over the blocks t ≤ n and the 250 groups g of the per-key
  quantity of key 2000·t + 8·g + s against query q (Distance.lean's `partialMin`). Block t of the keys is rows
  2000·t … 2000·t + 1999 of the key array; the two query operands are the whole transposed query array and the same
  scaled by the word of −2, as the host lines before the launch compute them. The proof is an induction on the block:
  the first block starts from +inf, every later block takes the minimum with what the block before left.
-/
import proofs.«138883_g39470749450747_cont_8to1_b_1176_2_alg».proof.Proof.Pieces
import proofs.«138883_g39470749450747_cont_8to1_b_1176_2_alg».proof.Proof.Payload
import proofs.«138883_g39470749450747_cont_8to1_b_1176_2_alg».proof.Proof.Distance
import proofs.«138883_g39470749450747_cont_8to1_b_1176_2_alg».proof.Proof.Consts
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.KernelIdeal.Payload Cert.Nearest

variable (m : (ℓ : Loc nD τ sig) → Buf (Elt Ideal) ℓ)

/-- The word the host scales the transposed queries by. -/
abbrev scale : EReal := Ideal.ofBits .f32 0xC0000000#32

/-- The two argument arrays, and the three input blocks of a point, at their literal types. -/
abbrev queries (c : Dev nD) : Vec Ideal S1024x64 .f32 := m ((c : Thread nD τ).loc main_arg0)
abbrev keys (c : Dev nD) : Vec Ideal S100000x64 .f32 := m ((c : Thread nD τ).loc main_arg1)
abbrev keyBlock (c : Dev nD) (t : Fin cfg0.N) : Vec Ideal S2000x64 .f32 := iblk m c 0 t
abbrev queryT (c : Dev nD) (t : Fin cfg0.N) : Vec Ideal S64x1024 .f32 := iblk m c 1 t
abbrev queryScaled (c : Dev nD) (t : Fin cfg0.N) : Vec Ideal S64x1024 .bf16 := iblk m c 2 t

/-- The arrays by rows. -/
def qrows (c : Dev nD) : Fin 1024 → Fin 64 → EReal := fun q d => queries m c (ix2 q d)
def krows (c : Dev nD) : Fin 100000 → Fin 64 → EReal := fun k d => keys m c (ix2 k d)

/-! ### The host lines before the launch -/

/-- The transposed queries as the launch finds them. -/
theorem V_queryT (c : Dev nD) :
    (V m c main_call0_v0 : S64x1024.Idx → EReal) = transpose S64x1024 [1, 0] (queries m c) transposes_S1024x64_S64x1024_1_0 := by
  show StableHlo.after hostOps0 (fun b => m (c, b)) (Proc.devRef .tc main_call0_v0) = _
  after_results
  rfl

/-- The scaled transposed queries as the launch finds them. -/
theorem V_queryScaled (c : Dev nD) :
    (V m c main_call0_v3 : S64x1024.Idx → EReal)
      = truncf .bf16 (mulf (broadcastInDim S64x1024 ![] bcast_S_S64x1024 (constant (F := Ideal) S_ .f32 0xC0000000#32))
          (transpose S64x1024 [1, 0] (queries m c) transposes_S1024x64_S64x1024_1_0)) bitsLt_bf16_f32 := by
  show StableHlo.after hostOps0 (fun b => m (c, b)) (Proc.devRef .tc main_call0_v3) = _
  after_results
  rfl

/-- The transpose at (d, q) is the query array at (q, d). -/
theorem transpose_queries_apply (x : Vec Ideal S1024x64 .f32) (d : Fin 64) (q : Fin 1024) :
    transpose S64x1024 [1, 0] x transposes_S1024x64_S64x1024_1_0 (ix2 d q) = x (ix2 q d) :=
  transpose_apply [1, 0] x transposes_S1024x64_S64x1024_1_0 (ix2 d q) (ix2 q d) (fun b => match b with
    | ⟨0, _⟩ => rfl
    | ⟨1, _⟩ => rfl)

/-! ### The windows' blocks -/

theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row r of block t is row 2000·t + r of the key array. -/
theorem keyBlock_apply (c : Dev nD) (t : Fin cfg0.N) (r : Fin 2000) (d : Fin 64) (k : Fin 100000)
    (hk : k.val = t.val * 2000 + r.val) :
    keyBlock m c t (ix2 r d) = keys m c (ix2 k d) := by
  obtain ⟨e0, e1, -⟩ := index_facts t
  show V m c main_arg1 (((cfg0.win 0).blk t).view.emb (ix2 r d)) = _
  rw [V_main_arg1]
  refine congrArg (keys m c) (funext fun a => Fin.ext ?_)
  match a with
  | ⟨0, _⟩ => show win0_0.index t (0 : Fin 2) * 2000 + 1 * r.val = k.val; omega
  | ⟨1, _⟩ => show win0_0.index t (1 : Fin 2) * 64 + 1 * d.val = d.val; omega

/-- The transposed-query operand is the whole transposed array at every point. -/
theorem queryT_apply (c : Dev nD) (t : Fin cfg0.N) (d : Fin 64) (q : Fin 1024) :
    queryT m c t (ix2 d q) = qrows m c q d := by
  obtain ⟨-, -, e0, e1, -⟩ := index_facts t
  show V m c main_call0_v0 (((cfg0.win 1).blk t).view.emb (ix2 d q)) = _
  have e : ((cfg0.win 1).blk t).view.emb (ix2 d q) = ix2 d q := funext fun a => Fin.ext (by
    match a with
    | ⟨0, _⟩ => show win0_1.index t (0 : Fin 2) * 64 + 1 * d.val = d.val; omega
    | ⟨1, _⟩ => show win0_1.index t (1 : Fin 2) * 1024 + 1 * q.val = q.val; omega)
  rw [e, V_queryT, transpose_queries_apply]
  rfl

/-- The scaled operand is the word of −2 times the transposed array at every point. -/
theorem queryScaled_apply (c : Dev nD) (t : Fin cfg0.N) (d : Fin 64) (q : Fin 1024) :
    queryScaled m c t (ix2 d q) = scale * qrows m c q d := by
  obtain ⟨-, -, -, -, e0, e1⟩ := index_facts t
  show V m c main_call0_v3 (((cfg0.win 2).blk t).view.emb (ix2 d q)) = _
  have e : ((cfg0.win 2).blk t).view.emb (ix2 d q) = ix2 d q := funext fun a => Fin.ext (by
    match a with
    | ⟨0, _⟩ => show win0_2.index t (0 : Fin 2) * 64 + 1 * d.val = d.val; omega
    | ⟨1, _⟩ => show win0_2.index t (1 : Fin 2) * 1024 + 1 * q.val = q.val; omega)
  rw [e, V_queryScaled]
  show (broadcastInDim S64x1024 ![] bcast_S_S64x1024 (constant (F := Ideal) S_ .f32 0xC0000000#32) (ix2 d q))
      * transpose S64x1024 [1, 0] (queries m c) transposes_S1024x64_S64x1024_1_0 (ix2 d q) = _
  rw [transpose_queries_apply, broadcastInDim_apply _ bcast_S_S64x1024 _ (ix2 d q) ix0 (fun a => a.elim0)]
  rfl

/-! ### One block's minimum, in the keys' own numbering -/

/-- The per-row quantity of block t is the per-key quantity of the key that row is. -/
theorem rowTerm_eq (c : Dev nD) (t : Fin cfg0.N) (t' : Fin 50) (ht : t'.val = t.val) (g : Fin 250) (s : Fin 8) (q : Fin 1024) :
    rowTerm (keyBlock m c t) (queryScaled m c t) (rowOf g s) q = keyTerm scale (qrows m c) (krows m c) (keyOf t' g s) q := by
  unfold rowTerm keyTerm
  have hk : (keyOf t' g s).val = t.val * 2000 + (rowOf g s).val := by
    show t'.val * 2000 + g.val * 8 + s.val = t.val * 2000 + (g.val * 8 + s.val)
    rw [ht]; omega
  refine congrArg₂ (· + ·) (Finset.sum_congr rfl fun d _ => ?_) (Finset.sum_congr rfl fun d _ => ?_)
  · rw [keyBlock_apply m c t _ d _ hk, queryScaled_apply]; rfl
  · rw [keyBlock_apply m c t _ d _ hk]; rfl

/-- What one update stores at (s, q): the minimum of what was there and the block's own minimum. -/
theorem update_apply (c : Dev nD) (t : Fin cfg0.N) (t' : Fin 50) (ht : t'.val = t.val) (prev : Vec Ideal S8x1024 .f32)
    (s : Fin 8) (q : Fin 1024) :
    k0_pay2 (F := Ideal) (keyBlock m c t) (queryScaled m c t) prev (ix2 s q)
      = min (prev (ix2 s q)) (blockMin scale (qrows m c) (krows m c) t' s q) := by
  rw [pay2_apply]
  unfold blockMin
  exact congrArg (min _) (Finset.inf_congr rfl fun g _ => rowTerm_eq m c t t' ht g s q)

/-- The reset value is +inf everywhere. -/
theorem reset_apply (j : S8x1024.Idx) : k0_pay1 (F := Ideal) j = (⊤ : EReal) := by
  unfold k0_pay1
  rw [shapeCast_self]
  exact Cert.Consts.ofBits_inf

/-! ### The induction on the block -/

/-- The scratch after block n. -/
theorem scratch_eq (c : Dev nD) : ∀ (n : ℕ) (h : n < cfg0.N) (s : Fin 8) (q : Fin 1024),
    (outsAt0 m c n h).2.2 (ix2 s q) = partialMin scale (qrows m c) (krows m c) n s q
  | 0, h, s, q => by
    rw [outsAt0_A m c ⟨0, h⟩ rfl (by dsimp only; omega)]
    dsimp only
    rw [Pieces.scratch_A]
    show k0_pay2 (F := Ideal) (keyBlock m c ⟨0, h⟩) (queryScaled m c ⟨0, h⟩) (k0_pay1 (F := Ideal)) (ix2 s q) = _
    rw [update_apply m c ⟨0, h⟩ ⟨0, by omega⟩ rfl, reset_apply, partialMin_zero, min_eq_right le_top]
  | n + 1, h, s, q => by
    have hN : n + 1 < 50 := lt_of_lt_of_eq h (show cfg0.N = 50 from N_0)
    have h0 : ¬(⟨n + 1, h⟩ : Fin cfg0.N).val % 50 = 0 := by dsimp only; omega
    have ih := scratch_eq c n (Nat.lt_of_succ_lt h) s q
    by_cases h1 : (⟨n + 1, h⟩ : Fin cfg0.N).val % 50 = 49
    · rw [outsAt0_C m c ⟨n + 1, h⟩ h0 h1]
      dsimp only
      rw [Pieces.scratch_C]
      show k0_pay2 (F := Ideal) (keyBlock m c ⟨n + 1, h⟩) (queryScaled m c ⟨n + 1, h⟩) (outsAt0 m c n _).2.2 (ix2 s q) = _
      rw [update_apply m c ⟨n + 1, h⟩ ⟨n + 1, hN⟩ rfl, ih, partialMin_succ _ _ _ n hN]
    · rw [outsAt0_B m c ⟨n + 1, h⟩ h0 h1]
      dsimp only
      rw [Pieces.scratch_B]
      show k0_pay2 (F := Ideal) (keyBlock m c ⟨n + 1, h⟩) (queryScaled m c ⟨n + 1, h⟩) (outsAt0 m c n _).2.2 (ix2 s q) = _
      rw [update_apply m c ⟨n + 1, h⟩ ⟨n + 1, hN⟩ rfl, ih, partialMin_succ _ _ _ n hN]

end Cert.KernelIdeal.Accum

end
-- ==== Proof.KernelValue.lean ====
/-
  What the kernel's two result arrays hold after the run.

  Only the last block writes the result windows back. There the row window holds, at q, the minimum over the eight
  sublanes of the complete running minimum plus the query's squared norm — Distance.lean's fused form `closestK` —
  and the 1 × 1 window the sum of that row. Each window's single block is its whole array, so the arrays end at those
  values; the two host lines after the launch only reshape them, to a vector of 1024 and to a scalar.
-/
import proofs.«138883_g39470749450747_cont_8to1_b_1176_2_alg».proof.Proof.Accum
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Payload Cert.KernelIdeal.Accum Cert.Nearest

variable (m : (ℓ : Loc nD τ sig) → Buf (Elt Ideal) ℓ) (ρ : Dev nD → PrngReg)

/-- The fused form's result for query q, from the two argument arrays. -/
abbrev closest (c : Dev nD) (q : Fin 1024) : EReal := closestK scale (qrows m c) (krows m c) q

/-- The row of results, the scalar, and their reshaped forms, as contents of the buffers that hold them. -/
abbrev rowArr (c : Dev nD) : Buf (Elt Ideal) ((c : Thread nD τ).loc main_call0_v4_0) :=
  (fun j => closest m c (j 1) : S1x1024.Idx → EReal)
abbrev sumArr (c : Dev nD) : Buf (Elt Ideal) ((c : Thread nD τ).loc main_call0_v4_1) :=
  (fun _ => ∑ q : Fin 1024, closest m c q : S1x1.Idx → EReal)
abbrev rowVec (c : Dev nD) : Buf (Elt Ideal) ((c : Thread nD τ).loc main_v0_1) :=
  (fun j => closest m c (j 0) : S1024.Idx → EReal)
abbrev sumScalar (c : Dev nD) : Buf (Elt Ideal) ((c : Thread nD τ).loc main_v0_0) :=
  (fun _ => ∑ q : Fin 1024, closest m c q : S_.Idx → EReal)

/-! ### The last block's stores -/

/-- At the last block the scratch the result row is computed from is the scratch the block leaves. -/
theorem last_scratch (c : Dev nD) (t : Fin cfg0.N) (h0 : ¬t.val % 50 = 0) (h1 : t.val % 50 = 49) :
    k0_pay2 (F := Ideal) (keyBlock m c t) (queryScaled m c t)
        (outsAt0 m c (t.val - 1) (Nat.lt_of_le_of_lt (Nat.sub_le _ _) t.isLt)).2.2
      = (outsAt0 m c t.val t.isLt).2.2 := by
  rw [outsAt0_C m c t h0 h1]
  dsimp only
  rw [Pieces.scratch_C]

/-- The result row computed from the complete running minimum is the fused form. -/
theorem row_apply (c : Dev nD) (t : Fin cfg0.N) (ht : t.val = 49) (u : Fin 1) (q : Fin 1024) :
    k0_pay3 (F := Ideal) (queryT m c t) (outsAt0 m c t.val t.isLt).2.2 (ix2 u q) = closest m c q := by
  rw [pay3_apply]
  unfold closest closestK sqNorm
  refine congrArg₂ (· + ·) (Finset.inf_congr rfl fun s _ => ?_) (Finset.sum_congr rfl fun d _ => ?_)
  · rw [scratch_eq m c t.val t.isLt s q, ht]
  · rw [queryT_apply]

theorem out_index_facts : ∀ t : Fin cfg0.N, win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What the last block writes back into the row window is the block of `rowArr`. -/
theorem flushed3_eq (c : Dev nD) (t : Fin cfg0.N) (hf : (cfg0.win 3).flush t = true) :
    (dats m 0 c).flushed 3 t = ((cfg0.win 3).blk t).view.read (Elt Ideal) (rowArr m c) := by
  have hN : t.val < 50 := lt_of_lt_of_eq t.isLt (show cfg0.N = 50 from N_0)
  have h1 : t.val % 50 = 49 := (flush0_3 t).mp hf
  have h0 : ¬t.val % 50 = 0 := by omega
  have ht : t.val = 49 := by omega
  obtain ⟨-, e1, -⟩ := out_index_facts t
  show (cfg0.win 3).cut (grid0.coords t) ((dats m 0 c).after 3 t) = _
  rw [after0_3, outsAt0_C m c t h0 h1]
  dsimp only
  rw [Pieces.out3_C]
  funext j
  obtain ⟨u, q, rfl⟩ : ∃ (u : Fin 1) (q : Fin 1024), j = ix2 u q := ⟨j 0, j 1, eq_ix2 j⟩
  show k0_pay3 (F := Ideal) (queryT m c t) (k0_pay2 (F := Ideal) (keyBlock m c t) (queryScaled m c t) _) (ix2 u q)
    = rowArr m c (((cfg0.win 3).blk t).view.emb (ix2 u q))
  rw [last_scratch m c t h0 h1, row_apply m c t ht]
  show closest m c q = closest m c ⟨win0_3.index t (1 : Fin 2) * 1024 + 1 * q.val, _⟩
  congr 1
  apply Fin.ext
  show q.val = win0_3.index t (1 : Fin 2) * 1024 + 1 * q.val
  omega

/-- What the last block writes back into the 1 × 1 window is `sumArr`. -/
theorem flushed4_eq (c : Dev nD) (t : Fin cfg0.N) (hf : (cfg0.win 4).flush t = true) :
    (dats m 0 c).flushed 4 t = ((cfg0.win 4).blk t).view.read (Elt Ideal) (sumArr m c) := by
  have hN : t.val < 50 := lt_of_lt_of_eq t.isLt (show cfg0.N = 50 from N_0)
  have h1 : t.val % 50 = 49 := (flush0_4 t).mp hf
  have h0 : ¬t.val % 50 = 0 := by omega
  have ht : t.val = 49 := by omega
  show (cfg0.win 4).cut (grid0.coords t) ((dats m 0 c).after 4 t) = _
  rw [after0_4, outsAt0_C m c t h0 h1]
  dsimp only
  rw [Pieces.out4_C]
  funext j
  show k0_pay4 (F := Ideal) (queryT m c t) (k0_pay2 (F := Ideal) (keyBlock m c t) (queryScaled m c t) _) j
    = ∑ q : Fin 1024, closest m c q
  rw [last_scratch m c t h0 h1, pay4_apply]
  exact Finset.sum_congr rfl fun q _ => row_apply m c t ht 0 q

/-! ### The arrays after the run -/

/-- The last grid point. -/
def lastPoint : Fin cfg0.N := ⟨49, by rw [show cfg0.N = 50 from N_0]; decide⟩

/-- The row window's one block is its whole array, so the array ends at `rowArr`. -/
theorem final3 (c : Dev nD) : (dats m 0 c).arrAt 3 cfg0.N = rowArr m c :=
  (dats m 0 c).arrAt_eq_of_cover 3 (rowArr m c) (flushed3_eq m c) fun i =>
    ⟨lastPoint, (flush0_3 lastPoint).mpr rfl, by
      show i ∈ ((View.whole main_call0_v4_0).slice (win0_3.rect lastPoint)).set
      rw [View.set_slice_whole, Rect.mem_set_unit]
      obtain ⟨e0, e1, -⟩ := out_index_facts lastPoint
      have b0 : (i 0).val < 1 := (i 0).isLt
      have b1 : (i 1).val < 1024 := (i 1).isLt
      intro a
      match a with
      | ⟨0, _⟩ => show win0_3.index lastPoint (0 : Fin 2) * 1 ≤ (i 0).val ∧ (i 0).val < win0_3.index lastPoint (0 : Fin 2) * 1 + 1; omega
      | ⟨1, _⟩ => show win0_3.index lastPoint (1 : Fin 2) * 1024 ≤ (i 1).val ∧ (i 1).val < win0_3.index lastPoint (1 : Fin 2) * 1024 + 1024; omega⟩

/-- Likewise the 1 × 1 array ends at `sumArr`. -/
theorem final4 (c : Dev nD) : (dats m 0 c).arrAt 4 cfg0.N = sumArr m c :=
  (dats m 0 c).arrAt_eq_of_cover 4 (sumArr m c) (flushed4_eq m c) fun i =>
    ⟨lastPoint, (flush0_4 lastPoint).mpr rfl, by
      show i ∈ ((View.whole main_call0_v4_1).slice (win0_4.rect lastPoint)).set
      rw [View.set_slice_whole, Rect.mem_set_unit]
      obtain ⟨-, -, e0, e1⟩ := out_index_facts lastPoint
      have b0 : (i 0).val < 1 := (i 0).isLt
      have b1 : (i 1).val < 1 := (i 1).isLt
      intro a
      match a with
      | ⟨0, _⟩ => show win0_4.index lastPoint (0 : Fin 2) * 1 ≤ (i 0).val ∧ (i 0).val < win0_4.index lastPoint (0 : Fin 2) * 1 + 1; omega
      | ⟨1, _⟩ => show win0_4.index lastPoint (1 : Fin 2) * 1 ≤ (i 1).val ∧ (i 1).val < win0_4.index lastPoint (1 : Fin 2) * 1 + 1; omega⟩

/-! ### The two host lines after the launch -/

/-- The row array reshaped to a vector of 1024. -/
theorem tail_row (c : Dev nD) :
    Pipeline.afterTail₀ cfgs (dats m) 0 (V0 m) [hostOps1] c main_v0_1 = rowVec m c := by
  have hw : Pipeline.withArrays (cfgs 0).spec c (V0 m c) (fun w => (dats m 0 c).arrAt w (cfgs 0).N)
      (Proc.devRef .tc main_call0_v4_0) = rowArr m c :=
    (Pipeline.withArrays_arr spec0 launch0.win.arr_inj c _ _ 3).trans (final3 m c)
  unfold Pipeline.afterTail₀
  show StableHlo.after hostOps1 _ (Proc.devRef .tc main_v0_1) = _
  after_results
  funext i
  obtain ⟨q, rfl⟩ : ∃ q : Fin 1024, i = ix1 q := ⟨i 0, eq_ix1 i⟩
  show shapeCast S1024 (Pipeline.withArrays (cfgs 0).spec c (V0 m c) (fun w => (dats m 0 c).arrAt w (cfgs 0).N)
      (Proc.devRef .tc main_call0_v4_0)) shapeCasts_S1x1024_S1024 (ix1 q) = closest m c q
  rw [hw]
  exact shapeCast_apply (rowArr m c) shapeCasts_S1x1024_S1024 (ix1 q) (ix2 (0 : Fin 1) q) (by
    show (S1x1024.rowMajor (ix2 (0 : Fin 1) q)).val = (S1024.rowMajor (ix1 q)).val
    rw [Shape.rowMajor_val_two, Shape.rowMajor_val_one]
    show 0 * 1024 + q.val = q.val
    omega)

/-- The 1 × 1 array reshaped to a scalar. -/
theorem tail_sum (c : Dev nD) :
    Pipeline.afterTail₀ cfgs (dats m) 0 (V0 m) [hostOps1] c main_v0_0 = sumScalar m c := by
  have hw : Pipeline.withArrays (cfgs 0).spec c (V0 m c) (fun w => (dats m 0 c).arrAt w (cfgs 0).N)
      (Proc.devRef .tc main_call0_v4_1) = sumArr m c :=
    (Pipeline.withArrays_arr spec0 launch0.win.arr_inj c _ _ 4).trans (final4 m c)
  unfold Pipeline.afterTail₀
  show StableHlo.after hostOps1 _ (Proc.devRef .tc main_v0_0) = _
  after_results
  funext i
  show shapeCast S_ (Pipeline.withArrays (cfgs 0).spec c (V0 m c) (fun w => (dats m 0 c).arrAt w (cfgs 0).N)
      (Proc.devRef .tc main_call0_v4_1)) shapeCasts_S1x1_S_ i = ∑ q : Fin 1024, closest m c q
  rw [hw]
  exact shapeCast_apply (sumArr m c) shapeCasts_S1x1_S_ i (ix2 (0 : Fin 1) (0 : Fin 1)) rfl

/-! ### The run, read -/

/-- Every weakly fair execution of the idealized kernel ends with the scalar result at the sum of the fused form over
    the queries, the vector result at the fused form, and the arguments unchanged. -/
theorem run : θ_run defs (onTc (τ := τ) (main (F := Ideal))) ⟨m, fun _ => 0, ρ⟩ fun r => ∀ c : Dev nD,
      r.2.mem ((c : Thread nD τ).loc main_v0_0) = sumScalar m c
      ∧ r.2.mem ((c : Thread nD τ).loc main_v0_1) = rowVec m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0_0 (Pipeline.mem_restRefs_of main_v0_0 (by decide) (by decide))).trans (tail_sum m c),
      ((h c).2 main_v0_1 (Pipeline.mem_restRefs_of main_v0_1 (by decide) (by decide))).trans (tail_row m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.KValue

end
-- ==== Proof.RefValue.lean ====
/-
  The reference read at an index. Its per-query result is the minimum over every key of the full squared distance
  (the plain form of Distance.lean, the cross term scaled by two), and its scalar result is the sum of those minima
  over the queries.
-/
import proofs.«138883_g39470749450747_cont_8to1_b_1176_2_alg».proof.Proof.Gen.ReferenceIdeal.Read
import proofs.«138883_g39470749450747_cont_8to1_b_1176_2_alg».proof.Proof.Distance
import proofs.«138883_g39470749450747_cont_8to1_b_1176_2_alg».proof.Proof.Consts
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The minimum's shape fact in the form that names the index with the key's coordinate inserted. -/
private theorem reduces_keys : S1024x100000.Reduces [1] S1024 := by decide

/-- The index over query `q` with key `k` inserted on the reduced axis is the pair (q, k). -/
private theorem lift_eq (q : Fin 1024) (k : Fin 100000) : reduces_keys.lift (ix1 q) k = ix2 q k := by
  funext a
  refine Fin.ext ?_
  match a with
  | ⟨0, _⟩ => rfl
  | ⟨1, _⟩ => rfl

/-- The array the minimum is taken over, at (q, k): the squared norm of query q plus that of key k, minus twice their
    inner product. Each broadcast reads its operand at the coordinate it keeps, the transpose swaps the two
    coordinates, and the sums start from zero. -/
private theorem operand_apply (X : (⟨S1024x64, .f32⟩ : BufTy).Contents (Elt Ideal)) (Y : (⟨S100000x64, .f32⟩ : BufTy).Contents (Elt Ideal))
    (q : Fin 1024) (k : Fin 100000) :
    val_main_v13 (F := Ideal) X Y (ix2 q k)
      = Cert.Nearest.dist ((2 : ℝ) : EReal) (fun q d => X (ix2 q d)) (fun k d => Y (ix2 k d)) q k := by
  have e1 : ∀ d : Fin 64, idx_main_v1 (idx_main_v6 (idx_main_v8 (ix2 q k))) d = ix2 q d := fun d =>
    funext fun a => Fin.ext (by match a with | ⟨0, _⟩ => rfl | ⟨1, _⟩ => rfl)
  have e2 : ∀ d : Fin 64, idx_main_v3 (idx_main_v7 (idx_main_v9 (ix2 q k))) d = ix2 k d := fun d =>
    funext fun a => Fin.ext (by match a with | ⟨0, _⟩ => rfl | ⟨1, _⟩ => rfl)
  have e3 : ∀ d : Fin 64, lidx_main_v5 (ix2 q k) d = ix2 q d := fun d =>
    funext fun a => Fin.ext (by match a with | ⟨0, _⟩ => rfl | ⟨1, _⟩ => rfl)
  have e4 : ∀ d : Fin 64, idx_main_v4 (ridx_main_v5 (ix2 q k) d) = ix2 k d := fun d =>
    funext fun a => Fin.ext (by match a with | ⟨0, _⟩ => rfl | ⟨1, _⟩ => rfl)
  simp only [val_main_v13_apply, val_main_v10_apply, val_main_v8_apply, val_main_v6_apply, val_main_v1_apply,
    val_main_v0_apply, val_main_cst_apply, val_main_v9_apply, val_main_v7_apply, val_main_v3_apply, val_main_v2_apply,
    val_main_cst_0_apply, val_main_v12_apply, val_main_v11_apply, val_main_cst_1_apply, val_main_v5_apply,
    val_main_v4_apply, e1, e2, e3, e4, Ideal.mulf_def, Ideal.addf_def, Ideal.subf_def, Ideal.ofBits_def,
    Cert.Consts.ofBits_zero, Cert.Consts.ofBits_two, zero_add]
  rfl

/-- The reference's minimum for query `q` is the plain form's. -/
theorem closest_apply (X : (⟨S1024x64, .f32⟩ : BufTy).Contents (Elt Ideal)) (Y : (⟨S100000x64, .f32⟩ : BufTy).Contents (Elt Ideal))
    (q : Fin 1024) :
    val_main_v14 (F := Ideal) X Y (ix1 q)
      = Cert.Nearest.closestR ((2 : ℝ) : EReal) (fun q d => X (ix2 q d)) (fun k d => Y (ix2 k d)) q := by
  unfold val_main_v14
  rw [Host.reduce_eq_fold_single _ _ _ reducesTo_S1024x100000_S1024_d1 reduces_keys h_S_ (ix1 q),
    val_main_cst_2_apply, Ideal.ofBits_def, Cert.Consts.ofBits_inf]
  show (Finset.univ : Finset (Fin (S1024x100000.size 1))).fold min (⊤ : EReal)
      (fun k => val_main_v13 (F := Ideal) X Y (reduces_keys.lift (ix1 q) k)) = _
  rw [Cert.Nearest.fold_min_top]
  unfold Cert.Nearest.closestR
  refine Finset.inf_congr rfl fun (k : Fin 100000) _ => ?_
  rw [lift_eq, operand_apply]

/-- A rank-one index set is its coordinate's range. -/
private def idxEquiv1 : S1024.Idx ≃ Fin 1024 where
  toFun j := j 0
  invFun := ix1
  left_inv j := (eq_ix1 j).symm
  right_inv _ := rfl

/-- The reference's scalar result is the sum of the per-query minima. -/
theorem total_apply (X : (⟨S1024x64, .f32⟩ : BufTy).Contents (Elt Ideal)) (Y : (⟨S100000x64, .f32⟩ : BufTy).Contents (Elt Ideal))
    (i : S_.Idx) :
    val_main_v15 (F := Ideal) X Y i = ∑ q : Fin 1024, val_main_v14 (F := Ideal) X Y (ix1 q) := by
  rw [val_main_v15_apply, val_main_cst_3_apply, Ideal.ofBits_def, Cert.Consts.ofBits_zero, zero_add]
  exact (Equiv.sum_comp idxEquiv1.symm (val_main_v14 (F := Ideal) X Y)).symm

end Cert.ReferenceIdeal.RefValue

end
-- ==== Proof.Finite.lean ====
/-
  The precondition read: if the finiteness predicate of the two argument arrays is all ones, every entry of both
  arrays is a real number. The predicate is the conjunction of two reductions by `and` of the entrywise comparison
  |v| < +inf; an extended real whose absolute value is below the top is neither infinity.
-/
import proofs.«138883_g39470749450747_cont_8to1_b_1176_2_alg».proof.Proof.Gen.Pre_finite_inputs
import proofs.«138883_g39470749450747_cont_8to1_b_1176_2_alg».proof.Proof.Consts
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

variable [Cert.Pre_finite_inputs.Facts]

/-- The scalar shape has one index. -/
private instance subsingleton_scalar_idx : Subsingleton S_.Idx := ⟨fun a b => funext fun d => d.elim0⟩

/-- A truth value as a one-bit word is one exactly when it is true. -/
private theorem ofBool_eq_one {b : Bool} : BitVec.ofBool b = 1#1 ↔ b = true := by cases b <;> decide

/-- An extended real whose absolute value max v (−v) is below the top is a real number: at the top v itself is the
    top, at the bottom −v is. -/
private theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- One entry of the comparison |x| < +inf being one says the entry of x is a real number. -/
private theorem real_of_entry {s : Shape} (bc : S_.BroadcastsInDim s (![] : Fin 0 → Fin s.rank)) (x : FVec Ideal s .f32)
    (i : s.Idx)
    (h : cmpf .olt (Host.absf x) (broadcastInDim s ![] bc (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [Cert.Consts.ofBits_inf] at h'
  simp only [Ideal.cmp, ofBool_eq_one, decide_eq_true_eq] at h'
  exact real_of_abs_lt_top _ h'

/-- Under the precondition both arrays hold real numbers only. -/
theorem real_of_pre (X : FVec Ideal S1024x64 .f32) (Y : FVec Ideal S100000x64 .f32)
    (h : Cert.Pre_finite_inputs.fn (F := Ideal) X Y = fun _ => 1#1) :
    (∀ i, ∃ r : ℝ, X i = (r : EReal)) ∧ (∀ i, ∃ r : ℝ, Y i = (r : EReal)) := by
  have h0 := congrFun h ValueIdx.ix0
  unfold Cert.Pre_finite_inputs.fn at h0
  dsimp only at h0
  obtain ⟨hX, hY⟩ := IntOp.andi_eq_one.1 h0
  refine ⟨fun i => ?_, fun i => ?_⟩
  · exact real_of_entry _ X i (Host.reduce_andi_all _ _ _ _ _ hX i)
  · exact real_of_entry _ Y i (Host.reduce_andi_all _ _ _ _ _ hY i)

end Cert.Pre_finite_inputs.Finite

end
-- ==== Proof.lean ====
/-
  Nearest key by squared distance: the fused blocked scan equals the plain reference over the extended reals.

  The kernel streams the 100000 keys in 50 blocks of 2000. Per block it forms, for every key row and every query, the
  cross term against the queries pre-scaled by −2 plus the key's squared norm, reduces each group of eight rows into an
  8 × 1024 running minimum, and at the last block reduces the eight sublanes and adds the queries' squared norms; the
  scalar result is the sum over the queries. The reference forms the full 1024 × 100000 matrix
  ‖x‖² + ‖y‖² − 2·x·y, takes the minimum over the keys and the sum over the queries.

  On finite inputs every entry is a real number, so Σ_d y·(−2·x) + Σ_d y² + Σ_d x² = (Σ_d x² + Σ_d y²) − 2·Σ_d x·y
  key by key; adding a real number commutes with a finite minimum; and (sublane, block, group) ↦ 2000·block + 8·group +
  sublane enumerates the keys exactly once. So the two per-query results agree, and the two sums with them. No
  operation was rewritten by the idealization, so the kernel's idealized text is its own text read at the ideal values.
-/
import proofs.«138883_g39470749450747_cont_8to1_b_1176_2_alg».proof.Defs
import proofs.«138883_g39470749450747_cont_8to1_b_1176_2_alg».proof.Proof.Gen.Kernel
import proofs.«138883_g39470749450747_cont_8to1_b_1176_2_alg».proof.Proof.Gen.Kernel.Skeleton
import proofs.«138883_g39470749450747_cont_8to1_b_1176_2_alg».proof.Proof.Gen.Kernel.Launch
import proofs.«138883_g39470749450747_cont_8to1_b_1176_2_alg».proof.Proof.Gen.Kernel.Points
import proofs.«138883_g39470749450747_cont_8to1_b_1176_2_alg».proof.Proof.Gen.Kernel.Frame
import proofs.«138883_g39470749450747_cont_8to1_b_1176_2_alg».proof.Proof.Gen.KernelIdeal
import proofs.«138883_g39470749450747_cont_8to1_b_1176_2_alg».proof.Proof.Gen.KernelIdeal.Skeleton
import proofs.«138883_g39470749450747_cont_8to1_b_1176_2_alg».proof.Proof.Gen.KernelIdeal.Launch
import proofs.«138883_g39470749450747_cont_8to1_b_1176_2_alg».proof.Proof.Gen.KernelIdeal.Points
import proofs.«138883_g39470749450747_cont_8to1_b_1176_2_alg».proof.Proof.Gen.KernelIdeal.Frame
import proofs.«138883_g39470749450747_cont_8to1_b_1176_2_alg».proof.Proof.Gen.ReferenceIdeal
import proofs.«138883_g39470749450747_cont_8to1_b_1176_2_alg».proof.Proof.Gen.ReferenceIdeal.Run
import proofs.«138883_g39470749450747_cont_8to1_b_1176_2_alg».proof.Proof.Gen.ReferenceIdeal.Read
import proofs.«138883_g39470749450747_cont_8to1_b_1176_2_alg».proof.Proof.Gen.Pre_finite_inputs
import proofs.«138883_g39470749450747_cont_8to1_b_1176_2_alg».proof.Proof.KernelValue
import proofs.«138883_g39470749450747_cont_8to1_b_1176_2_alg».proof.Proof.RefValue
import proofs.«138883_g39470749450747_cont_8to1_b_1176_2_alg».proof.Proof.Finite
import Idealize.ShloMosaic.Adequacy
import Idealize.ShloMosaic.Init

noncomputable section

open scoped BigOperators

namespace Cert.Proof

open Idealize.ShloMosaic Idealize.SL.Sem Idealize.ShloMosaic.ValueIdx

/-- On real entries the kernel's per-query result is the reference's: the word of −2 denotes −2, and the two forms of
    Distance.lean agree. -/
theorem closest_bridge (m : (ℓ : Loc Cert.KernelIdeal.nD Cert.KernelIdeal.τ Cert.KernelIdeal.sig) → Buf (Elt Ideal) ℓ)
    (c : Dev Cert.KernelIdeal.nD)
    (hx : ∀ i, ∃ r : ℝ, Cert.KernelIdeal.Accum.queries m c i = (r : EReal))
    (hy : ∀ i, ∃ r : ℝ, Cert.KernelIdeal.Accum.keys m c i = (r : EReal)) (q : Fin 1024) :
    Cert.KernelIdeal.KValue.closest m c q
      = Cert.Nearest.closestR ((2 : ℝ) : EReal) (Cert.KernelIdeal.Accum.qrows m c) (Cert.KernelIdeal.Accum.krows m c) q := by
  unfold Cert.KernelIdeal.KValue.closest
  rw [show Cert.KernelIdeal.Accum.scale = ((-2 : ℝ) : EReal) from Cert.Consts.ofBits_neg_two]
  exact Cert.Nearest.closest_eq _ _ (fun q d => hx (ix2 q d)) (fun k d => hy (ix2 k d)) q

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the same two results: the kernel's run ends at the fused form and its sum, the
    reference's run at the plain form and its sum of arguments that agree, and on finite arguments the forms agree. -/
theorem algebraic : Cert.algebraic_KernelIdeal_ReferenceIdeal := by
  intro m ρ m' ρ' hpre hagree
  refine ⟨fun c => Cert.KernelIdeal.KValue.sumScalar m c, fun c => Cert.KernelIdeal.KValue.rowVec m c,
    Cert.KernelIdeal.KValue.run m ρ, ?_⟩
  refine (θ_run Cert.ReferenceIdeal.defs _ _).mono (fun _ h c => ?_) (Cert.ReferenceIdeal.Value.run (F := Ideal) m' ρ')
  obtain ⟨h15, h14, ha0, ha1⟩ := h c
  obtain ⟨hx, hy⟩ := Cert.Pre_finite_inputs.Finite.real_of_pre _ _ (hpre c)
  have hq : ∀ q : Fin 1024,
      Cert.ReferenceIdeal.Read.val_main_v14 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (ix1 q)
        = Cert.KernelIdeal.KValue.closest m c q := fun q => by
    rw [Cert.ReferenceIdeal.RefValue.closest_apply, closest_bridge m c hx hy q]
    rfl
  refine ⟨h15.trans ?_, h14.trans ?_, ha0, ha1⟩
  · rw [Cert.ReferenceIdeal.Read.val_main_v15_eq, (hagree c).1, (hagree c).2]
    funext i
    rw [Cert.ReferenceIdeal.RefValue.total_apply]
    exact Finset.sum_congr rfl fun q _ => hq q
  · rw [Cert.ReferenceIdeal.Read.val_main_v14_eq, (hagree c).1, (hagree c).2]
    funext j
    obtain ⟨q, rfl⟩ : ∃ q : Fin 1024, j = ix1 q := ⟨j 0, eq_ix1 j⟩
    exact hq q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
